-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S512x256 : Shape := ⟨2, ![512, 256]⟩
abbrev S512 : Shape := ⟨1, ![512]⟩
abbrev S512x512 : Shape := ⟨2, ![512, 512]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512 .f32) (main_arg5 : FVec F S512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S65536x256 .f32) (main_arg1 : FVec F S512x256 .f32) (main_arg2 : FVec F S512 .f32) (main_arg3 : FVec F S512x512 .f32) (main_arg4 : FVec F S512 .f32) (main_arg5 : FVec F S512 .f32) (main_arg6 : FVec F S512 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S65536x256 : Shape := ⟨2, ![65536, 256]⟩
abbrev S512x256 : Shape := ⟨2, ![512, 256]⟩
abbrev S512 : Shape := ⟨1, ![512]⟩
abbrev S512x512 : Shape := ⟨2, ![512, 512]⟩
abbrev S1x512 : Shape := ⟨2, ![1, 512]⟩
abbrev S65536x512 : Shape := ⟨2, ![65536, 512]⟩
abbrev S1024x256 : Shape := ⟨2, ![1024, 256]⟩
abbrev S1024x512 : Shape := ⟨2, ![1024, 512]⟩
abbrev S1024 : Shape := ⟨1, ![1024]⟩
abbrev S1024x1 : Shape := ⟨2, ![1024, 1]⟩
abbrev S256x512 : Shape := ⟨2, ![256, 512]⟩

abbrev nBuf : Space → Nat
  | .hbm => 12
  | .vmem => 10
  | .smem => 0
  | _ => 0

abbrev bufTy : (tb : Table) → Fin (tcTables nBuf tb) → BufTy
  | .hbm, ⟨0, _⟩ => ⟨S65536x256, .f32⟩
  | .hbm, ⟨1, _⟩ => ⟨S512x256, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S65536x512, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S512_S1x512 : S512.ShapeCasts S1x512
  inb_S1024x256_S1024x256_0_0 : ∀ a, (![0, 0] : Fin 2 → Nat) a + S1024x256.size a ≤ S1024x256.size a
  h_S1024x256 : 0 < S1024x256.numel
  inb_S512x256_S512x256_0_0 : ∀ a, (![0, 0] : Fin 2 → Nat) a + S512x256.size a ≤ S512x256.size a
  h_S512x256 : 0 < S512x256.numel
  reduces_S1024x256_S1024 : S1024x256.Reduces [1] S1024
  shapeCasts_S1024_S1024x1 : S1024.ShapeCasts S1024x1
  reduces_S512x256_S512 : S512x256.Reduces [1] S512
  bitsLt_bf16_f32 : FTy.bits .bf16 < FTy.bits .f32
  transposes_S512x256_p1_0_S256x512 : S512x256.Transposes [1, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  reduces_S1024x512_S1024 : S1024x512.Reduces [1] S1024
  inb_S1024x512_S1024x512_0_0 : ∀ a, (![0, 0] : Fin 2 → Nat) a + S1024x512.size a ≤ S1024x512.size a
  h_S1024x512 : 0 < S1024x512.numel
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S65536x512.size a
  hwx0_7 : ∀ i : grid0.Coords, EltTy.bits .f32 = 32 ∨ (Rect.block (s := S65536x512) S1024x512.size (cc0_transform_7 i) (hinb0_7 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S512x256 : Shape := ⟨2, ![512, 256]⟩
abbrev S512 : Shape := ⟨1, ![512]⟩
abbrev S512x512 : Shape := ⟨2, ![512, 512]⟩
abbrev S_ : Shape := ⟨0, ![]⟩
abbrev S65536 : Shape := ⟨1, ![65536]⟩
abbrev S65536x1 : Shape := ⟨2, ![65536, 1]⟩
abbrev S65536x512 : Shape := ⟨2, ![65536, 512]⟩
abbrev S1x512 : Shape := ⟨2, ![1, 512]⟩

abbrev nBuf : Space → Nat
  | .hbm => 63
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S512x256, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S65536x256, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S512x256, .f32⟩
  | .hbm, ⟨12, _⟩ => ⟨S_, .f32⟩
  | .hbm, ⟨13, _⟩ => ⟨S512, .f32⟩
  | .hbm, ⟨14, _⟩ => ⟨S65536x512, .f32⟩
  | .hbm, ⟨15, _⟩ => ⟨S1x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S_, .f32⟩
  | .hbm, ⟨20, _⟩ => ⟨S65536x512, .f32⟩
  | .hbm, ⟨21, _⟩ => ⟨S65536x512, .f32⟩
  | .hbm, ⟨22, _⟩ => ⟨S65536x512, .f32⟩
  | .hbm, ⟨23, _⟩ => ⟨S65536x512, .f32⟩
  | .hbm, ⟨24, _⟩ => ⟨S512, .f32⟩
  | .hbm, ⟨25, _⟩ => ⟨S1x512, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S1x512, .f32⟩
  | .hbm, ⟨31, _⟩ => ⟨S65536x512, .f32⟩
  | .hbm, ⟨32, _⟩ => ⟨S65536x512, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x512, .f32⟩
  | .hbm, ⟨40, _⟩ => ⟨S65536x512, .f32⟩
  | .hbm, ⟨41, _⟩ => ⟨S65536x512, .f32⟩
  | .hbm, ⟨42, _⟩ => ⟨S_, .f32⟩
  | .hbm, ⟨43, _⟩ => ⟨S65536, .f32⟩
  | .hbm, ⟨44, _⟩ => ⟨S65536x1, .f32⟩
  | .hbm, ⟨45, _⟩ => ⟨S_, .f32⟩
  | .hbm, ⟨46, _⟩ => ⟨S65536x1, .f32⟩
  | .hbm, ⟨47, _⟩ => ⟨S65536x1, .f32⟩
  | .hbm, ⟨48, _⟩ => ⟨S65536x512, .f32⟩
  | .hbm, ⟨49, _⟩ => ⟨S65536x512, .f32⟩
  | .hbm, ⟨50, _⟩ => ⟨S_, .f32⟩
  | .hbm, ⟨51, _⟩ => ⟨S65536x1, .f32⟩
  | .hbm, ⟨52, _⟩ => ⟨S65536x1, .f32⟩
  | .hbm, ⟨53, _⟩ => ⟨S65536x1, .f32⟩
  | .hbm, ⟨54, _⟩ => ⟨S65536x512, .f32⟩
  | .hbm, ⟨55, _⟩ => ⟨S65536x512, .f32⟩
  | .hbm, ⟨56, _⟩ => ⟨S1x512, .f32⟩
  | .hbm, ⟨57, _⟩ => ⟨S65536x512, .f32⟩
  | .hbm, ⟨58, _⟩ => ⟨S65536x512, .f32⟩
  | .hbm, ⟨59, _⟩ => ⟨S1x512, .f32⟩
  | .hbm, ⟨60, _⟩ => ⟨S65536x512, .f32⟩
  | .hbm, ⟨61, _⟩ => ⟨S65536x512, .f32⟩
  | .hbm, ⟨62, _⟩ => ⟨S65536x512, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S512x256_S512_d1 : S512x256.ReducesTo [1] S512
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  reducesTo_S65536x512_S65536_d1 : S65536x512.ReducesTo [1] S65536
  bcast_S_S65536x1 : S_.BroadcastsInDim S65536x1 (![] : Fin 0 → Fin S65536x1.rank)
  dot_S65536x256_S512x256_S65536x512_1_1_0_0_n_n_wf : DotDims.WF S65536x256 S512x256 S65536x512 [1] [1] [0] [0] [] []
  dot_S65536x512_S512x512_S65536x512_1_1_0_0_n_n_wf : DotDims.WF S65536x512 S512x512 S65536x512 [1] [1] [0] [0] [] []

variable [Facts₀]

def dot_S65536x256_S512x256_S65536x512_1_1_0_0_n_n : DotDims S65536x256 S512x256 S65536x512 where
  lhsContracting := [1]
  rhsContracting := [1]
  lhsNonContracting := [0]
  rhsNonContracting := [0]
  lhsBatch := []
  rhsBatch := []
  wf := dot_S65536x256_S512x256_S65536x512_1_1_0_0_n_n_wf
def dot_S65536x512_S512x512_S65536x512_1_1_0_0_n_n : DotDims S65536x512 S512x512 S65536x512 where
  lhsContracting := [1]
  rhsContracting := [1]
  lhsNonContracting := [0]
  rhsNonContracting := [0]
  lhsBatch := []
  rhsBatch := []
  wf := dot_S65536x512_S512x512_S65536x512_1_1_0_0_n_n_wf

class Facts : Prop extends Facts₀ where

variable [Facts]
-- ==== Proof.Layer.lean ====
/-
  The layer as a function of one input row.

  A row x of 256 numbers is compared with 512 centres C g: the squared distance is expanded as
  |x|² + |C g|² − 2 x·C g, its negative is scaled by exp (ls g) and exponentiated, giving 512 activations; these are
  mixed linearly by W (row w of W against the activations) plus a bias b w; the 512 mixed values are centred by their
  mean, divided by the root of their mean square deviation plus a small constant, scaled by γ, shifted by β, and put
  through tanh. All over the extended reals, every operation the exact one, the three float literals (2, 512 and the
  small constant) kept as the binary words both programs spell.
  `G` is that function applied to every row of the input array.
-/
import Idealize.ShloMosaic.PureOps.Ideal
import Idealize.ShloMosaic.Lib.ValueIdx

noncomputable section

namespace Cert.Layer

open Idealize.ShloMosaic Idealize.ShloMosaic.ValueIdx

/-- The literal 2.0. -/
abbrev two : EReal := Ideal.ofBits .f32 0x40000000#32
/-- The literal 512.0, the number of mixed values a mean is taken over. -/
abbrev width : EReal := Ideal.ofBits .f32 0x44000000#32
/-- The small constant added to the mean square deviation. -/
abbrev eps : EReal := Ideal.ofBits .f32 0x3727C5AC#32

variable (x : Fin 256 → EReal) (C : Fin 512 → Fin 256 → EReal) (ls : Fin 512 → EReal)
  (W : Fin 512 → Fin 512 → EReal) (b γ β : Fin 512 → EReal)

/-- The squared length of a vector of 256 numbers. -/
def sqNorm (v : Fin 256 → EReal) : EReal := ∑ k : Fin 256, v k * v k

/-- The inner product of the row with centre g. -/
def inner (g : Fin 512) : EReal := ∑ k : Fin 256, x k * C g k

/-- The squared distance from the row to centre g, expanded. -/
def dist2 (g : Fin 512) : EReal := (sqNorm x + sqNorm (C g)) - two * inner x C g

/-- The activation of centre g: exp of the negated squared distance times exp (ls g). -/
def act (g : Fin 512) : EReal := Ideal.exp (-(dist2 x C g) * Ideal.exp (ls g))

/-- The mixed value w: row w of W against the activations, plus the bias. -/
def mixed (w : Fin 512) : EReal := (∑ g : Fin 512, act x C ls g * W w g) + b w

/-- The mean of the 512 mixed values. -/
def mean : EReal := Ideal.div (∑ w : Fin 512, mixed x C ls W b w) width

/-- The deviation of mixed value w from the mean. -/
def dev (w : Fin 512) : EReal := mixed x C ls W b w - mean x C ls W b

/-- The mean square deviation. -/
def var : EReal := Ideal.div (∑ w : Fin 512, dev x C ls W b w * dev x C ls W b w) width

/-- The layer's value w on the row. -/
def out (w : Fin 512) : EReal :=
  Ideal.tanh (dev x C ls W b w * Ideal.rsqrt (var x C ls W b + eps) * γ w + β w)

/-- The layer on every row of the input array A0, with centres A1, log scales A2, mixing matrix A3, bias A4 and
    the normalisation's scale A5 and shift A6. -/
def G (A0 : FVec Ideal ⟨2, ![65536, 256]⟩ .f32) (A1 : FVec Ideal ⟨2, ![512, 256]⟩ .f32) (A2 : FVec Ideal ⟨1, ![512]⟩ .f32)
    (A3 : FVec Ideal ⟨2, ![512, 512]⟩ .f32) (A4 A5 A6 : FVec Ideal ⟨1, ![512]⟩ .f32) : FVec Ideal ⟨2, ![65536, 512]⟩ .f32 :=
  fun j => out (fun k => A0 (ix2 (j 0) k)) (fun g k => A1 (ix2 g k)) (fun g => A2 (ix1 g)) (fun w g => A3 (ix2 w g))
    (fun w => A4 (ix1 w)) (fun w => A5 (ix1 w)) (fun w => A6 (ix1 w)) (j 1)

end Cert.Layer

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.LibIdxExt.lean ====
/-
  Indices of literal shapes of rank one and two are equal when their coordinates are.
-/
import Idealize.ShloMosaic.Lib.ValueIdx

namespace Cert.LibIdxExt

open Idealize.ShloMosaic

/-- Two indices of a rank-two shape with equal row and column coordinates are equal. -/
theorem idx2_ext {n0 n1 : ℕ} {i j : (⟨2, ![n0, n1]⟩ : Shape).Idx} (h0 : (i 0).val = (j 0).val)
    (h1 : (i 1).val = (j 1).val) : i = j :=
  funext fun a => Fin.ext (by match a with | ⟨0, _⟩ => exact h0 | ⟨1, _⟩ => exact h1)

/-- Two indices of a rank-one shape with equal coordinates are equal. -/
theorem idx1_ext {n : ℕ} {i j : (⟨1, ![n]⟩ : Shape).Idx} (h0 : (i 0).val = (j 0).val) : i = j :=
  funext fun a => Fin.ext (by match a with | ⟨0, _⟩ => exact h0)

end Cert.LibIdxExt
-- ==== Proof.LibColumn.lean ====
/-
  A column [a, 1] read at an index: a vector [a] cast to a column reads, at (p, 0), the vector at p; a column
  broadcast across the columns of [a, b] reads, at (p, q), the column at (p, 0). For any extents.
-/
import Idealize.ShloMosaic.Lib.ValueIdx
import Idealize.ShloMosaic.Lib.Pipeline.Value

noncomputable section

namespace Cert.LibColumn

open Idealize.ShloMosaic Idealize.ShloMosaic.ValueIdx

variable {α : Type}

/-- A vector [a] cast to a column [a, 1]: at (p, 0), the vector at p. -/
theorem column_apply {a : ℕ} (v : (⟨1, ![a]⟩ : Shape).Idx → α) (h₁ : (⟨1, ![a]⟩ : Shape).ShapeCasts ⟨2, ![a, 1]⟩)
    (p : Fin a) : shapeCast ⟨2, ![a, 1]⟩ v h₁ (ix2 p (0 : Fin 1)) = v (ix1 p) :=
  shapeCast_apply v h₁ _ _ (by
    rw [Shape.rowMajor_val_one, Shape.rowMajor_val_two]
    show p.val = p.val * 1 + 0
    omega)

/-- A column [a, 1] broadcast across the columns of [a, b]: at (p, q), the column at (p, 0). -/
theorem column_across_apply {a b : ℕ} (v : (⟨2, ![a, 1]⟩ : Shape).Idx → α)
    (h₂ : (⟨2, ![a, 1]⟩ : Shape).Broadcasts ⟨2, ![a, b]⟩) (p : Fin a) (q : Fin b) :
    broadcastTo ⟨2, ![a, b]⟩ v h₂ (ix2 p q) = v (ix2 p (0 : Fin 1)) :=
  broadcastTo_apply v h₂ (ix2 p q) (ix2 p (0 : Fin 1)) fun ax => by
    match ax with
    | ⟨0, _⟩ =>
      show p.val = if a = 1 then 0 else p.val
      split
      · have := p.isLt; omega
      · rfl
    | ⟨1, _⟩ => rfl

end Cert.LibColumn

end
-- ==== Proof.BodyIsLayer.lean ====
/-
  The kernel's body computes the layer on each row of its block.

  The body holds a block of 1024 input rows, all 512 centres, the log scales, the mixing matrix, the bias and the
  normalisation's scale and shift (the four vectors as one-row blocks). Its two matrix products contract the rows'
  256 entries with the centres' (the centres transposed first) and the 512 activations with the rows of the mixing
  matrix (transposed first), each into a zero accumulator; a change of float format is the identity on the extended
  reals, and a transposed matrix read at (k, g) is the matrix at (g, k), so each product's entry is the plain sum of
  products. The row sums are sums along the lanes, kept as a column and broadcast across, or turned into a row and
  broadcast down. Read at row p and column w, stage by stage, each value is the corresponding quantity of the layer on
  row p of the block; the negation is written as a difference from the zero word, which is the negative.
-/
import proofs.«130811_j70385924047526_1_alg».proof.Proof.Gen.KernelIdeal.Skeleton
import proofs.«130811_j70385924047526_1_alg».proof.Proof.Layer
import proofs.«130811_j70385924047526_1_alg».proof.Proof.LibKeepdims
import proofs.«130811_j70385924047526_1_alg».proof.Proof.LibIdxExt
import proofs.«130811_j70385924047526_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyLayer

open Cert.KernelIdeal Cert.KernelIdeal.Gen Idealize.ShloMosaic Idealize.ShloMosaic.ValueIdx Cert.Layer Cert.LibKeepdims
  Cert.LibIdxExt Cert.LibColumn

variable (X0 : FVec Ideal S1024x256 .f32) (X1 : FVec Ideal S512x256 .f32) (X2 : FVec Ideal S1x512 .f32)
  (X3 : FVec Ideal S512x512 .f32) (X4 X5 X6 : FVec Ideal S1x512 .f32)

/-- Row p of the block of inputs. -/
abbrev brow (p : Fin 1024) : Fin 256 → EReal := fun k => X0 (ix2 p k)
/-- The centres, one per row of their block. -/
abbrev bcen : Fin 512 → Fin 256 → EReal := fun g k => X1 (ix2 g k)
/-- A one-row block of 512 numbers as a function. -/
abbrev bvec (X : FVec Ideal S1x512 .f32) : Fin 512 → EReal := fun g => X (ix2 (0 : Fin 1) g)
/-- The mixing matrix. -/
abbrev bmat : Fin 512 → Fin 512 → EReal := fun w g => X3 (ix2 w g)

/-! ## The two matrix products' operand indices -/

theorem lhs_cross_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_cross_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhs_cross_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs_cross_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

theorem lhs_mix_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_mix_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_mix_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_mix_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A [1024, 256] times [256, 512] product into the zero accumulator, at (p, g): the sum over k of the left operand at
    (p, k) times the right at (k, g). -/
theorem cross_apply (L : FVec Ideal S1024x256 .bf16) (R : FVec Ideal S256x512 .bf16) (p : Fin 1024) (g : Fin 512) :
    matmul dot_S1024x256_S256x512_S1024x512_1_0_0_1_n_n none L R (constant S1024x512 .f32 0x00000000#32) (ix2 p g)
      = ∑ k : Fin 256, L (ix2 p k) * R (ix2 k g) := by
  simp only [matmul]
  rw [Ideal.matmul_constant_zero_apply, ← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 p g) ((ValueIdx.contrEquiv1 dot_S1024x256_S256x512_S1024x512_1_0_0_1_n_n 256 rfl rfl).symm k) = ix2 p k := funext fun a => Fin.ext (by
    match a with
    | ⟨0, _⟩ => exact lhs_cross_0 _ _
    | ⟨1, _⟩ => exact (lhs_cross_1 _ _).trans hk)
  have er : dot_S1024x256_S256x512_S1024x512_1_0_0_1_n_n.rhsIdx (ix2 p g) ((ValueIdx.contrEquiv1 dot_S1024x256_S256x512_S1024x512_1_0_0_1_n_n 256 rfl rfl).symm k) = ix2 k g := funext fun a => Fin.ext (by
    match a with
    | ⟨0, _⟩ => exact (rhs_cross_0 _ _).trans hk
    | ⟨1, _⟩ => exact rhs_cross_1 _ _)
  rw [el, er]

/-- A [1024, 512] times [512, 512] product into the zero accumulator, at (p, w): the sum over g of the left operand at
    (p, g) times the right at (g, w). -/
theorem mix_apply (L : FVec Ideal S1024x512 .bf16) (R : FVec Ideal S512x512 .bf16) (p : Fin 1024) (w : Fin 512) :
    matmul dot_S1024x512_S512x512_S1024x512_1_0_0_1_n_n none L R (constant S1024x512 .f32 0x00000000#32) (ix2 p w)
      = ∑ g : Fin 512, L (ix2 p g) * R (ix2 g w) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p w) ((ValueIdx.contrEquiv1 dot_S1024x512_S512x512_S1024x512_1_0_0_1_n_n 512 rfl rfl).symm k) = ix2 p k := funext fun a => Fin.ext (by
    match a with
    | ⟨0, _⟩ => exact lhs_mix_0 _ _
    | ⟨1, _⟩ => exact (lhs_mix_1 _ _).trans hk)
  have er : dot_S1024x512_S512x512_S1024x512_1_0_0_1_n_n.rhsIdx (ix2 p w) ((ValueIdx.contrEquiv1 dot_S1024x512_S512x512_S1024x512_1_0_0_1_n_n 512 rfl rfl).symm k) = ix2 k w := funext fun a => Fin.ext (by
    match a with
    | ⟨0, _⟩ => exact (rhs_mix_0 _ _).trans hk
    | ⟨1, _⟩ => exact rhs_mix_1 _ _)
  rw [el, er]

/-! ## The body's stages on row p -/

/-- The rows' squared lengths, kept as a column and broadcast across. -/
theorem sq_row (p : Fin 1024) (g : Fin 512) :
    broadcastTo S1024x512 (shapeCast S1024x1 (multiReduction (F := Ideal) .add [1] S1024 (mulf X0 X0) 0x00000000#32
      reduces_S1024x256_S1024 (.inl rfl) rfl) shapeCasts_S1024_S1024x1) broadcasts_S1024x1_S1024x512 (ix2 p g)
      = sqNorm (brow X0 p) :=
  (column_broadcast_apply _ shapeCasts_S1024_S1024x1 broadcasts_S1024x1_S1024x512 p g).trans
    (lane_sum_apply (mulf X0 X0) reduces_S1024x256_S1024 (.inl rfl) rfl p)

/-- The centres' squared lengths, turned into a row and broadcast down. -/
theorem sq_cen (p : Fin 1024) (g : Fin 512) :
    broadcastTo S1024x512 (shapeCast S1x512 (multiReduction (F := Ideal) .add [1] S512 (mulf X1 X1) 0x00000000#32
      reduces_S512x256_S512 (.inl rfl) rfl) shapeCasts_S512_S1x512) broadcasts_S1x512_S1024x512 (ix2 p g)
      = sqNorm (bcen X1 g) :=
  (broadcastTo_1b_ab_apply _ broadcasts_S1x512_S1024x512 p g).trans
    ((shapeCast_a_1a_apply _ shapeCasts_S512_S1x512 (0 : Fin 1) g).trans
      (lane_sum_apply (mulf X1 X1) reduces_S512x256_S512 (.inl rfl) rfl g))

/-- The product of the rows with the transposed centres: the inner products. -/
theorem inner_row (p : Fin 1024) (g : Fin 512) :
    matmul (F := Ideal) dot_S1024x256_S256x512_S1024x512_1_0_0_1_n_n none (truncf .bf16 X0 bitsLt_bf16_f32)
      (transpose S256x512 [1, 0] (truncf (F := Ideal) .bf16 X1 bitsLt_bf16_f32) transposes_S512x256_p1_0_S256x512)
      (constant S1024x512 .f32 0x00000000#32) (ix2 p g) = inner (brow X0 p) (bcen X1) g := by
  rw [cross_apply]
  exact Finset.sum_congr rfl fun k _ => by rw [transpose_ix2_apply]; rfl

/-! ## The body's values, stage by stage, as arrays over the block -/

/-- The activations of all centres on all rows of the block. -/
def actBlock : FVec Ideal S1024x512 .f32 :=
  exp (mulf (subf (broadcast S1024x512 (Scalar.ofBits .f32 0x00000000#32 : Ideal .f32))
      (subf (addf
          (broadcastTo S1024x512 (shapeCast S1024x1 (multiReduction (F := Ideal) .add [1] S1024 (mulf X0 X0) 0x00000000#32
            reduces_S1024x256_S1024 (.inl rfl) rfl) shapeCasts_S1024_S1024x1) broadcasts_S1024x1_S1024x512)
          (broadcastTo S1024x512 (shapeCast S1x512 (multiReduction (F := Ideal) .add [1] S512 (mulf X1 X1) 0x00000000#32
            reduces_S512x256_S512 (.inl rfl) rfl) shapeCasts_S512_S1x512) broadcasts_S1x512_S1024x512))
        (mulf (broadcast S1024x512 (Scalar.ofBits .f32 0x40000000#32 : Ideal .f32))
          (matmul (F := Ideal) dot_S1024x256_S256x512_S1024x512_1_0_0_1_n_n none (truncf .bf16 X0 bitsLt_bf16_f32)
            (transpose S256x512 [1, 0] (truncf (F := Ideal) .bf16 X1 bitsLt_bf16_f32) transposes_S512x256_p1_0_S256x512)
            (constant S1024x512 .f32 0x00000000#32)))))
    (broadcastTo S1024x512 (exp (shapeCast S1x512 X2 shapeCasts_S1x512_S1x512)) broadcasts_S1x512_S1024x512))

/-- The mixed values of all rows of the block. -/
def mixBlock : FVec Ideal S1024x512 .f32 :=
  addf (matmul (F := Ideal) dot_S1024x512_S512x512_S1024x512_1_0_0_1_n_n none (truncf .bf16 (actBlock X0 X1 X2) bitsLt_bf16_f32)
      (transpose S512x512 [1, 0] (truncf (F := Ideal) .bf16 X3 bitsLt_bf16_f32) transposes_S512x512_p1_0_S512x512)
      (constant S1024x512 .f32 0x00000000#32))
    (broadcastTo S1024x512 (shapeCast S1x512 X4 shapeCasts_S1x512_S1x512) broadcasts_S1x512_S1024x512)

/-- A column of row sums of a [1024, 512] array, divided by 512: the rows' means. -/
def meanCol (M : FVec Ideal S1024x512 .f32) : FVec Ideal S1024x1 .f32 :=
  divf (shapeCast S1024x1 (multiReduction (F := Ideal) .add [1] S1024 M 0x00000000#32 reduces_S1024x512_S1024 (.inl rfl) rfl)
      shapeCasts_S1024_S1024x1)
    (broadcast S1024x1 (Scalar.ofBits .f32 0x44000000#32 : Ideal .f32))

/-- The deviations of the mixed values from their rows' means. -/
def devBlock : FVec Ideal S1024x512 .f32 :=
  subf (mixBlock X0 X1 X2 X3 X4)
    (broadcastTo S1024x512 (meanCol (mixBlock X0 X1 X2 X3 X4)) broadcasts_S1024x1_S1024x512)

/-- What the body stores, from the deviations D and the normalisation's scale and shift. -/
def outBlock (D : FVec Ideal S1024x512 .f32) : FVec Ideal S1024x512 .f32 :=
  tanh (addf (mulf (mulf D
        (broadcastTo S1024x512 (rsqrt (addf (meanCol (mulf D D)) (broadcast S1024x1 (Scalar.ofBits .f32 0x3727C5AC#32 : Ideal .f32))))
          broadcasts_S1024x1_S1024x512))
      (broadcastTo S1024x512 (shapeCast S1x512 X5 shapeCasts_S1x512_S1x512) broadcasts_S1x512_S1024x512))
    (broadcastTo S1024x512 (shapeCast S1x512 X6 shapeCasts_S1x512_S1x512) broadcasts_S1x512_S1024x512))

/-- The body's first part returns the deviations. -/
theorem pay2_eq : k0_pay2 X0 X1 X2 X3 X4 = devBlock X0 X1 X2 X3 X4 := rfl

/-- The body's stored value is `outBlock` of what its first part returns. -/
theorem pay1_eq (D : FVec Ideal S1024x512 .f32) : k0_pay1 D X5 X6 = outBlock X5 X6 D := rfl

/-! ## Each stage on row p -/

/-- The activation of centre g on row p of the block. -/
theorem act_row (p : Fin 1024) (g : Fin 512) :
    actBlock X0 X1 X2 (ix2 p g) = act (brow X0 p) (bcen X1) (bvec X2) g := by
  have h1 := sq_row X0 p g
  have h2 := sq_cen X1 p g
  have h3 := inner_row X0 X1 p g
  have h4 : broadcastTo S1024x512 (exp (shapeCast S1x512 X2 shapeCasts_S1x512_S1x512)) broadcasts_S1x512_S1024x512 (ix2 p g)
      = Ideal.exp (X2 (ix2 (0 : Fin 1) g)) :=
    (broadcastTo_1b_ab_apply _ broadcasts_S1x512_S1024x512 p g).trans
      (congrArg Ideal.exp (congrFun (shapeCast_self X2 shapeCasts_S1x512_S1x512) _))
  show Ideal.exp ((Ideal.ofBits .f32 0x00000000#32 - ((_ + _) - Ideal.ofBits .f32 0x40000000#32 * _)) * _) = _
  rw [h1, h2, h3, h4, Ideal.ofBits_zero_f32, zero_sub]
  rfl

/-- The mixed value w of row p of the block. -/
theorem mixed_row (p : Fin 1024) (w : Fin 512) :
    mixBlock X0 X1 X2 X3 X4 (ix2 p w) = mixed (brow X0 p) (bcen X1) (bvec X2) (bmat X3) (bvec X4) w := by
  have h1 := mix_apply (truncf .bf16 (actBlock X0 X1 X2) bitsLt_bf16_f32)
    (transpose S512x512 [1, 0] (truncf (F := Ideal) .bf16 X3 bitsLt_bf16_f32) transposes_S512x512_p1_0_S512x512) p w
  have h2 := row_broadcast_apply X4 shapeCasts_S1x512_S1x512 broadcasts_S1x512_S1024x512 p w
  show _ + _ = _
  rw [h1, h2]
  refine congrArg (· + X4 (ix2 (0 : Fin 1) w)) (Finset.sum_congr rfl fun g _ => ?_)
  rw [transpose_ix2_apply]
  show actBlock X0 X1 X2 (ix2 p g) * X3 (ix2 w g) = _
  rw [act_row]

/-- The mean column of an array M at row p: the row's sum over 512. -/
theorem meanCol_apply (M : FVec Ideal S1024x512 .f32) (p : Fin 1024) :
    meanCol M (ix2 p (0 : Fin 1)) = Ideal.div (∑ w : Fin 512, M (ix2 p w)) width := by
  show Ideal.div (shapeCast S1024x1 _ shapeCasts_S1024_S1024x1 (ix2 p (0 : Fin 1))) width = _
  refine congrArg (Ideal.div · width) ((column_apply _ shapeCasts_S1024_S1024x1 p).trans
    (lane_sum_apply M reduces_S1024x512_S1024 (.inl rfl) rfl p))

/-- The deviation of mixed value w of row p from the row's mean. -/
theorem dev_row (p : Fin 1024) (w : Fin 512) :
    devBlock X0 X1 X2 X3 X4 (ix2 p w) = dev (brow X0 p) (bcen X1) (bvec X2) (bmat X3) (bvec X4) w := by
  have h1 := mixed_row X0 X1 X2 X3 X4 p w
  have h2 : broadcastTo S1024x512 (meanCol (mixBlock X0 X1 X2 X3 X4)) broadcasts_S1024x1_S1024x512 (ix2 p w)
      = mean (brow X0 p) (bcen X1) (bvec X2) (bmat X3) (bvec X4) :=
    (column_across_apply _ broadcasts_S1024x1_S1024x512 p w).trans ((meanCol_apply _ p).trans
      (congrArg (Ideal.div · width) (Finset.sum_congr rfl fun w' _ => mixed_row X0 X1 X2 X3 X4 p w')))
  show _ - _ = _
  rw [h1, h2]
  rfl

/-- What the body stores at row p and column w is the layer's value w on row p of the block. -/
theorem out_row (p : Fin 1024) (w : Fin 512) :
    k0_pay1 (F := Ideal) (k0_pay2 (F := Ideal) X0 X1 X2 X3 X4) X5 X6 (ix2 p w)
      = out (brow X0 p) (bcen X1) (bvec X2) (bmat X3) (bvec X4) (bvec X5) (bvec X6) w := by
  rw [pay2_eq, pay1_eq]
  have hd := dev_row X0 X1 X2 X3 X4 p w
  have hv : broadcastTo S1024x512 (rsqrt (addf (meanCol (mulf (devBlock X0 X1 X2 X3 X4) (devBlock X0 X1 X2 X3 X4)))
        (broadcast S1024x1 (Scalar.ofBits .f32 0x3727C5AC#32 : Ideal .f32)))) broadcasts_S1024x1_S1024x512 (ix2 p w)
      = Ideal.rsqrt (var (brow X0 p) (bcen X1) (bvec X2) (bmat X3) (bvec X4) + eps) := by
    refine (column_across_apply _ broadcasts_S1024x1_S1024x512 p w).trans ?_
    show Ideal.rsqrt (meanCol _ (ix2 p (0 : Fin 1)) + eps) = _
    rw [meanCol_apply]
    refine congrArg (fun s => Ideal.rsqrt (Ideal.div s width + eps)) (Finset.sum_congr rfl fun w' _ => ?_)
    show devBlock X0 X1 X2 X3 X4 (ix2 p w') * devBlock X0 X1 X2 X3 X4 (ix2 p w') = _
    rw [dev_row]
  have h5 := row_broadcast_apply X5 shapeCasts_S1x512_S1x512 broadcasts_S1x512_S1024x512 p w
  have h6 := row_broadcast_apply X6 shapeCasts_S1x512_S1x512 broadcasts_S1x512_S1024x512 p w
  show Ideal.tanh (_ * _ * _ + _) = _
  rw [hd, hv, h5, h6]
  rfl

/-! ## The stored block against the layer on the whole array -/

/-- What the body stores at index y of its block is the layer on the whole arrays at index i, when the block's row
    (y 0) is the array's row (i 0), the columns agree, and the other blocks are the whole arrays (the four vectors
    as one-row blocks). -/
theorem block_out (A0 : FVec Ideal ⟨2, ![65536, 256]⟩ .f32) (A1 : FVec Ideal ⟨2, ![512, 256]⟩ .f32)
    (A2 : FVec Ideal ⟨1, ![512]⟩ .f32) (A3 : FVec Ideal ⟨2, ![512, 512]⟩ .f32) (A4 A5 A6 : FVec Ideal ⟨1, ![512]⟩ .f32)
    (y : S1024x512.Idx) (i : S65536x512.Idx)
    (h0 : ∀ k : Fin 256, X0 (ix2 (y 0) k) = A0 (ix2 (i 0) k))
    (h1 : ∀ (g : Fin 512) (k : Fin 256), X1 (ix2 g k) = A1 (ix2 g k))
    (h2 : ∀ g : Fin 512, X2 (ix2 (0 : Fin 1) g) = A2 (ix1 g))
    (h3 : ∀ w g : Fin 512, X3 (ix2 w g) = A3 (ix2 w g))
    (h4 : ∀ g : Fin 512, X4 (ix2 (0 : Fin 1) g) = A4 (ix1 g))
    (h5 : ∀ g : Fin 512, X5 (ix2 (0 : Fin 1) g) = A5 (ix1 g))
    (h6 : ∀ g : Fin 512, X6 (ix2 (0 : Fin 1) g) = A6 (ix1 g))
    (hq : (y 1).val = (i 1).val) :
    k0_pay1 (F := Ideal) (k0_pay2 (F := Ideal) X0 X1 X2 X3 X4) X5 X6 y = G A0 A1 A2 A3 A4 A5 A6 i := by
  obtain ⟨p, q, rfl⟩ : ∃ (p : Fin 1024) (q : Fin 512), y = ix2 p q := ⟨y 0, y 1, eq_ix2 y⟩
  rw [out_row]
  have e0 : brow X0 p = fun k => A0 (ix2 (i 0) k) := funext h0
  have e1 : bcen X1 = fun g k => A1 (ix2 g k) := funext fun g => funext fun k => h1 g k
  have e2 : bvec X2 = fun g => A2 (ix1 g) := funext h2
  have e3 : bmat X3 = fun w g => A3 (ix2 w g) := funext fun w => funext fun g => h3 w g
  have e4 : bvec X4 = fun g => A4 (ix1 g) := funext h4
  have e5 : bvec X5 = fun g => A5 (ix1 g) := funext h5
  have e6 : bvec X6 = fun g => A6 (ix1 g) := funext h6
  have eq : q = i 1 := Fin.ext hq
  rw [e0, e1, e2, e3, e4, e5, e6, eq]
  rfl

end Cert.KernelIdeal.BodyLayer

end
-- ==== Proof.ArrayIsLayer.lean ====
/-
  The kernel's result array is the layer on every row of the input array.

  The grid has 64 points. Point t holds rows 1024 t … 1024 t + 1023 of the input array, all of the centres and of
  the mixing matrix, and the four vectors as one-row arrays (reshaped by the host before the call), and writes back
  rows 1024 t … 1024 t + 1023 of the result. What it writes is the body's stored value of those blocks, which on each
  row is the layer on that row; so the block written is the block of the layer on the whole array, and the 64 blocks
  cover the result array (row r lies in block r / 1024).
-/
import proofs.«130811_j70385924047526_1_alg».proof.Proof.Gen.KernelIdeal.Value
import proofs.«130811_j70385924047526_1_alg».proof.Proof.BodyIsLayer
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.ArrayLayer

open Cert.KernelIdeal Cert.KernelIdeal.Gen Cert.KernelIdeal.BodyLayer Idealize.ShloMosaic Idealize.ShloMosaic.TcCoe
  Idealize.SL.Sem Idealize.ShloMosaic.ValueIdx Cert.Layer
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer on the argument arrays as launched. -/
abbrev result (c : Dev nD) : Buf (Elt Ideal) ((c : Thread nD τ).loc main_v4) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The block indices over the grid: the input rows and the result rows move with the point, everything else is
    block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The input blocks as parts of the argument arrays -/

/-- Row p of the input block at point t is row 1024 t + p of the input array. -/
theorem iblk0_apply (c : Dev nD) (t : Fin cfg0.N) (x : S1024x256.Idx) (k : S65536x256.Idx)
    (hk0 : (k 0).val = 1024 * t.val + (x 0).val) (hk1 : (k 1).val = (x 1).val) :
    (iblk m c 0 t : Vec Ideal S1024x256 .f32) x = ((m ((c : Thread nD τ).loc main_arg0)) : S65536x256.Idx → Elt Ideal .f32) k := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 256 + 1 * (x 1).val = (k 1).val; rw [e1, hk1]; omega

/-- The centres' block is the centres' array. -/
theorem iblk1_apply (c : Dev nD) (t : Fin cfg0.N) (x : S512x256.Idx) :
    (iblk m c 1 t : Vec Ideal S512x256 .f32) x = ((m ((c : Thread nD τ).loc main_arg1)) : S512x256.Idx → Elt Ideal .f32) x := by
  obtain ⟨-, -, e0, e1, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 512 + 1 * (x 0).val = (x 0).val; rw [e0]; omega
  | ⟨1, _⟩ => show win0_1.index t (1 : Fin 2) * 256 + 1 * (x 1).val = (x 1).val; rw [e1]; omega

/-- The mixing matrix's block is its array. -/
theorem iblk3_apply (c : Dev nD) (t : Fin cfg0.N) (x : S512x512.Idx) :
    (iblk m c 3 t : Vec Ideal S512x512 .f32) x = ((m ((c : Thread nD τ).loc main_arg3)) : S512x512.Idx → Elt Ideal .f32) x := by
  obtain ⟨-, -, -, -, -, -, e0, e1, -⟩ := idx_facts t
  unfold iblk
  rw [View.read_apply]
  show V m c main_arg3 _ = m (c.tc.loc main_arg3) _
  rw [V_main_arg3]
  congr 1
  funext a
  apply Fin.ext
  match a with
  | ⟨0, _⟩ => show win0_3.index t (0 : Fin 2) * 512 + 1 * (x 0).val = (x 0).val; rw [e0]; omega
  | ⟨1, _⟩ => show win0_3.index t (1 : Fin 2) * 512 + 1 * (x 1).val = (x 1).val; rw [e1]; omega

/-- The host reshapes each of the four vectors to a one-row array before the call. -/
theorem V_v0 (c : Dev nD) : (V m c main_v0 : S1x512.Idx → Elt Ideal .f32)
    = shapeCast S1x512 (m ((c : Thread nD τ).loc main_arg2)) shapeCasts_S512_S1x512 := by
  dsimp only [V, hostOps0]; after_results; rfl
theorem V_v1 (c : Dev nD) : (V m c main_v1 : S1x512.Idx → Elt Ideal .f32)
    = shapeCast S1x512 (m ((c : Thread nD τ).loc main_arg4)) shapeCasts_S512_S1x512 := by
  dsimp only [V, hostOps0]; after_results; rfl
theorem V_v2 (c : Dev nD) : (V m c main_v2 : S1x512.Idx → Elt Ideal .f32)
    = shapeCast S1x512 (m ((c : Thread nD τ).loc main_arg5)) shapeCasts_S512_S1x512 := by
  dsimp only [V, hostOps0]; after_results; rfl
theorem V_v3 (c : Dev nD) : (V m c main_v3 : S1x512.Idx → Elt Ideal .f32)
    = shapeCast S1x512 (m ((c : Thread nD τ).loc main_arg6)) shapeCasts_S512_S1x512 := by
  dsimp only [V, hostOps0]; after_results; rfl

/-- The log scales' one-row block at g is the log scales' vector at g. -/
theorem iblk2_apply (c : Dev nD) (t : Fin cfg0.N) (g : Fin 512) :
    (iblk m c 2 t : Vec Ideal S1x512 .f32) (ix2 (0 : Fin 1) g) = ((m ((c : Thread nD τ).loc main_arg2)) : S512.Idx → Elt Ideal .f32) (ix1 g) := by
  obtain ⟨-, -, -, -, e0, e1, -⟩ := idx_facts t
  unfold iblk
  rw [View.read_apply]
  show V m c main_v0 _ = _
  rw [V_v0]
  refine (congrArg _ (?_ : _ = ix2 (0 : Fin 1) g)).trans (shapeCast_a_1a_apply _ shapeCasts_S512_S1x512 (0 : Fin 1) g)
  funext a
  apply Fin.ext
  match a with
  | ⟨0, _⟩ => show win0_2.index t (0 : Fin 2) * 1 + 1 * 0 = 0; rw [e0]
  | ⟨1, _⟩ => show win0_2.index t (1 : Fin 2) * 512 + 1 * g.val = g.val; rw [e1]; omega

/-- The bias' one-row block at g is the bias' vector at g. -/
theorem iblk4_apply (c : Dev nD) (t : Fin cfg0.N) (g : Fin 512) :
    (iblk m c 4 t : Vec Ideal S1x512 .f32) (ix2 (0 : Fin 1) g) = ((m ((c : Thread nD τ).loc main_arg4)) : S512.Idx → Elt Ideal .f32) (ix1 g) := by
  obtain ⟨-, -, -, -, -, -, -, -, e0, e1, -⟩ := idx_facts t
  unfold iblk
  rw [View.read_apply]
  show V m c main_v1 _ = _
  rw [V_v1]
  refine (congrArg _ (?_ : _ = ix2 (0 : Fin 1) g)).trans (shapeCast_a_1a_apply _ shapeCasts_S512_S1x512 (0 : Fin 1) g)
  funext a
  apply Fin.ext
  match a with
  | ⟨0, _⟩ => show win0_4.index t (0 : Fin 2) * 1 + 1 * 0 = 0; rw [e0]
  | ⟨1, _⟩ => show win0_4.index t (1 : Fin 2) * 512 + 1 * g.val = g.val; rw [e1]; omega

/-- The scale's one-row block at g is the scale's vector at g. -/
theorem iblk5_apply (c : Dev nD) (t : Fin cfg0.N) (g : Fin 512) :
    (iblk m c 5 t : Vec Ideal S1x512 .f32) (ix2 (0 : Fin 1) g) = ((m ((c : Thread nD τ).loc main_arg5)) : S512.Idx → Elt Ideal .f32) (ix1 g) := by
  obtain ⟨-, -, -, -, -, -, -, -, -, -, e0, e1, -⟩ := idx_facts t
  unfold iblk
  rw [View.read_apply]
  show V m c main_v2 _ = _
  rw [V_v2]
  refine (congrArg _ (?_ : _ = ix2 (0 : Fin 1) g)).trans (shapeCast_a_1a_apply _ shapeCasts_S512_S1x512 (0 : Fin 1) g)
  funext a
  apply Fin.ext
  match a with
  | ⟨0, _⟩ => show win0_5.index t (0 : Fin 2) * 1 + 1 * 0 = 0; rw [e0]
  | ⟨1, _⟩ => show win0_5.index t (1 : Fin 2) * 512 + 1 * g.val = g.val; rw [e1]; omega

/-- The shift's one-row block at g is the shift's vector at g. -/
theorem iblk6_apply (c : Dev nD) (t : Fin cfg0.N) (g : Fin 512) :
    (iblk m c 6 t : Vec Ideal S1x512 .f32) (ix2 (0 : Fin 1) g) = ((m ((c : Thread nD τ).loc main_arg6)) : S512.Idx → Elt Ideal .f32) (ix1 g) := by
  obtain ⟨-, -, -, -, -, -, -, -, -, -, -, -, e0, e1, -⟩ := idx_facts t
  unfold iblk
  rw [View.read_apply]
  show V m c main_v3 _ = _
  rw [V_v3]
  refine (congrArg _ (?_ : _ = ix2 (0 : Fin 1) g)).trans (shapeCast_a_1a_apply _ shapeCasts_S512_S1x512 (0 : Fin 1) g)
  funext a
  apply Fin.ext
  match a with
  | ⟨0, _⟩ => show win0_6.index t (0 : Fin 2) * 1 + 1 * 0 = 0; rw [e0]
  | ⟨1, _⟩ => show win0_6.index t (1 : Fin 2) * 512 + 1 * g.val = g.val; rw [e1]; omega

/-! ## What each point writes back, the cover, the array -/

/-- Point t writes back block t of the layer on the whole arrays. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero hz]
  simp only [View.ld_unit_zero (S := S1024x256) hz, View.ld_unit_zero (S := S512x256) hz,
    View.ld_unit_zero (S := S1x512) hz, View.ld_unit_zero (S := S512x512) hz]
  obtain ⟨-, -, -, -, -, -, -, -, -, -, -, -, -, -, e0, e1⟩ := idx_facts t
  funext j
  show k0_pay1 (F := Ideal) (k0_pay2 (F := Ideal) (iblk m c 0 t) (iblk m c 1 t) (iblk m c 2 t) (iblk m c 3 t) (iblk m c 4 t))
      (iblk m c 5 t) (iblk m c 6 t) j = result m c (((cfg0.win 7).blk t).view.emb j)
  refine block_out (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) j (((cfg0.win 7).blk t).view.emb j)
    (fun k => iblk0_apply m c t _ _ ?_ rfl) (fun g k => iblk1_apply m c t _) (fun g => iblk2_apply m c t g)
    (fun w g => iblk3_apply m c t _) (fun g => iblk4_apply m c t g) (fun g => iblk5_apply m c t g)
    (fun g => iblk6_apply m c t g) ?_
  · show win0_7.index t (0 : Fin 2) * 1024 + 1 * (j 0).val = 1024 * t.val + (j 0).val
    rw [e0]; omega
  · show (j 1).val = win0_7.index t (1 : Fin 2) * 512 + 1 * (j 1).val
    rw [e1]; omega

/-- An index of the result array is in point t's block iff each coordinate is in the block's range. -/
theorem mem_blk (t : Fin cfg0.N) (i : S65536x512.Idx) :
    i ∈ ((cfg0.win 7).blk t).view.set ↔ ∀ a : Fin 2, win0_7.index t a * S1024x512.size a ≤ (i a).val
      ∧ (i a).val < win0_7.index t a * S1024x512.size a + S1024x512.size a := by
  show i ∈ ((View.whole main_v4).slice (win0_7.rect t)).set ↔ _
  rw [View.set_slice_whole, Rect.mem_set_unit]
  exact Iff.rfl

/-- Row r of the result array lies in the block of point r / 1024. -/
theorem cover (i : S65536x512.Idx) :
    ∃ t : Fin cfg0.N, (cfg0.win 7).flush t = true ∧ i ∈ ((cfg0.win 7).blk t).view.set := by
  have hN : cfg0.N = 64 := N_0
  have hi0 : (i 0).val < 65536 := (i 0).isLt
  have hi1 : (i 1).val < 512 := (i 1).isLt
  have ht : (i 0).val / 1024 < cfg0.N := by rw [hN]; omega
  obtain ⟨-, -, -, -, -, -, -, -, -, -, -, -, -, -, e0, e1⟩ := idx_facts ⟨(i 0).val / 1024, ht⟩
  refine ⟨⟨(i 0).val / 1024, ht⟩, flush0_7 _, ?_⟩
  rw [mem_blk]
  intro a
  match a with
  | ⟨0, _⟩ =>
    show win0_7.index ⟨(i 0).val / 1024, ht⟩ (0 : Fin 2) * 1024 ≤ (i 0).val
      ∧ (i 0).val < win0_7.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_7.index ⟨(i 0).val / 1024, ht⟩ (1 : Fin 2) * 512 ≤ (i 1).val
      ∧ (i 1).val < win0_7.index ⟨(i 0).val / 1024, ht⟩ (1 : Fin 2) * 512 + 512
    rw [e1]
    omega

/-- After the run the result array is the layer on the whole arrays. -/
theorem final (c : Dev nD) : (dats m 0 c).arrAt 7 cfg0.N = result m c :=
  (dats m 0 c).arrAt_eq_of_cover 7 (result m c) (fun t _ => flushed_eq m c t) cover

/-- The kernel's run: the result array at the layer on the argument arrays, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩)
    (Cert.KernelIdeal.Value.run_blocks m ρ)

end Cert.KernelIdeal.ArrayLayer

end
-- ==== Proof.RefIsLayer.lean ====
/-
  The reference computes the layer.

  The reference forms, for the whole input array at once, the rows' squared lengths, the centres' squared lengths
  and all inner products, combines them into squared distances, exponentiates, mixes, and normalises each row of
  512 mixed values by its mean and mean square deviation. Read at row r and column w, stage by stage, each of its
  arrays is the corresponding quantity of the layer on row r: a sum over the last axis is the plain sum over that
  axis (the initial value being the zero word), a contraction of last axes is the sum of products, a broadcast reads
  its operand at the coordinate it keeps.
-/
import proofs.«130811_j70385924047526_1_alg».proof.Proof.Gen.ReferenceIdeal.Read
import proofs.«130811_j70385924047526_1_alg».proof.Proof.Layer
import proofs.«130811_j70385924047526_1_alg».proof.Proof.LibIdxExt
import Idealize.ShloMosaic.PureOps.Ideal.Laws

noncomputable section

namespace Cert.ReferenceIdeal.RefLayer

open Cert.ReferenceIdeal Cert.ReferenceIdeal.Read Idealize.ShloMosaic Idealize.ShloMosaic.ValueIdx Cert.Layer Cert.LibIdxExt

variable (A0 : (⟨S65536x256, .f32⟩ : BufTy).Contents (Elt Ideal)) (A1 : (⟨S512x256, .f32⟩ : BufTy).Contents (Elt Ideal))
  (A2 : (⟨S512, .f32⟩ : BufTy).Contents (Elt Ideal)) (A3 : (⟨S512x512, .f32⟩ : BufTy).Contents (Elt Ideal))
  (A4 A5 A6 : (⟨S512, .f32⟩ : BufTy).Contents (Elt Ideal))

/-- Row r of the input array. -/
abbrev row (r : Fin 65536) : Fin 256 → EReal := fun k => A0 (ix2 r k)
/-- The centres, one per row of their array. -/
abbrev cen : Fin 512 → Fin 256 → EReal := fun g k => A1 (ix2 g k)
/-- A vector of 512 numbers as a function. -/
abbrev vec (A : (⟨S512, .f32⟩ : BufTy).Contents (Elt Ideal)) : Fin 512 → EReal := fun g => A (ix1 g)
/-- The mixing matrix. -/
abbrev mat : Fin 512 → Fin 512 → EReal := fun w g => A3 (ix2 w g)

/-- The broadcast squared length of row r. -/
theorem sq_row (r : Fin 65536) (g : Fin 512) :
    val_main_v7 (F := Ideal) A0 (ix2 r g) = sqNorm (row A0 r) := by
  rw [val_main_v7_apply, val_main_v2_apply, val_main_v1_apply, val_main_cst_apply]
  simp only [val_main_v0_apply, Ideal.ofBits_def, Ideal.mulf_def, Ideal.ofBits_zero_f32, zero_add]
  exact Finset.sum_congr rfl fun k _ => by
    rw [show idx_main_v1 (idx_main_v2 (idx_main_v7 (ix2 r g))) k = ix2 r k from idx2_ext rfl rfl]

/-- The broadcast squared length of centre g. -/
theorem sq_cen (r : Fin 65536) (g : Fin 512) :
    val_main_v8 (F := Ideal) A1 (ix2 r g) = sqNorm (cen A1 g) := by
  rw [val_main_v8_apply, val_main_v6_apply, val_main_v4_apply, val_main_cst_0_apply]
  simp only [val_main_v3_apply, Ideal.ofBits_def, Ideal.mulf_def, Ideal.ofBits_zero_f32, zero_add]
  exact Finset.sum_congr rfl fun k _ => by
    rw [show idx_main_v4 (idx_main_v6 (idx_main_v8 (ix2 r g))) k = ix2 g k from idx2_ext rfl rfl]

/-- The contraction of the inputs' and the centres' last axes is the inner product of row r with centre g. -/
theorem inner_row (r : Fin 65536) (g : Fin 512) :
    val_main_v5 (F := Ideal) A0 A1 (ix2 r g) = inner (row A0 r) (cen A1) g := by
  rw [val_main_v5_apply]
  exact Finset.sum_congr rfl fun k _ => by
    rw [show lidx_main_v5 (ix2 r g) k = ix2 r k from idx2_ext rfl rfl, show ridx_main_v5 (ix2 r g) k = ix2 g k from idx2_ext rfl rfl]

/-- The squared distance of row r to centre g. -/
theorem dist2_row (r : Fin 65536) (g : Fin 512) :
    val_main_v12 (F := Ideal) A0 A1 (ix2 r g) = dist2 (row A0 r) (cen A1) g := by
  rw [val_main_v12_apply, val_main_v9_apply, val_main_v11_apply, val_main_v10_apply, val_main_cst_1_apply,
    sq_row, sq_cen, inner_row]
  rfl

/-- The activation of centre g on row r. -/
theorem act_row (r : Fin 65536) (g : Fin 512) :
    val_main_v18 (F := Ideal) A0 A1 A2 (ix2 r g) = act (row A0 r) (cen A1) (vec A2) g := by
  rw [val_main_v18_apply, val_main_v17_apply, val_main_v13_apply, dist2_row, val_main_v16_apply, val_main_v15_apply,
    val_main_v14_apply, show idx_main_v15 (idx_main_v16 (ix2 r g)) = ix1 g from idx1_ext rfl]
  rfl

/-- The mixed value w of row r. -/
theorem mixed_row (r : Fin 65536) (w : Fin 512) :
    val_main_v22 (F := Ideal) A0 A1 A2 A3 A4 (ix2 r w) = mixed (row A0 r) (cen A1) (vec A2) (mat A3) (vec A4) w := by
  rw [val_main_v22_apply, val_main_v19_apply, val_main_v21_apply, val_main_v20_apply,
    show idx_main_v20 (idx_main_v21 (ix2 r w)) = ix1 w from idx1_ext rfl]
  simp only [Ideal.addf_def]
  refine congrArg (· + A4 (ix1 w)) (Finset.sum_congr rfl fun g _ => ?_)
  rw [show lidx_main_v19 (ix2 r w) g = ix2 r g from idx2_ext rfl rfl, show ridx_main_v19 (ix2 r w) g = ix2 w g from idx2_ext rfl rfl,
    act_row]

/-- The mean of row r's mixed values. -/
theorem mean_row (r : Fin 65536) :
    val_main_v26 (F := Ideal) A0 A1 A2 A3 A4 (ix2 r (0 : Fin 1)) = mean (row A0 r) (cen A1) (vec A2) (mat A3) (vec A4) := by
  rw [val_main_v26_apply, val_main_v24_apply, val_main_v25_apply, val_main_cst_3_apply, val_main_v23_apply,
    val_main_cst_2_apply]
  simp only [Ideal.ofBits_def, Ideal.hostDivf_def, Ideal.ofBits_zero_f32, zero_add]
  refine congrArg (Ideal.div · width) (Finset.sum_congr rfl fun w _ => ?_)
  rw [show idx_main_v23 (idx_main_v24 (ix2 r (0 : Fin 1))) w = ix2 r w from idx2_ext rfl rfl, mixed_row]

/-- The deviation of mixed value w of row r from the row's mean, as the variance reads it. -/
theorem dev_row (r : Fin 65536) (w : Fin 512) :
    val_main_v28 (F := Ideal) A0 A1 A2 A3 A4 (ix2 r w) = dev (row A0 r) (cen A1) (vec A2) (mat A3) (vec A4) w := by
  rw [val_main_v28_apply, val_main_v27_apply, mixed_row,
    show idx_main_v27 (ix2 r w) = ix2 r (0 : Fin 1) from idx2_ext rfl rfl, mean_row]
  rfl

/-- The same deviation, as the normalised value reads it (a second broadcast of the mean). -/
theorem dev_row' (r : Fin 65536) (w : Fin 512) :
    val_main_v35 (F := Ideal) A0 A1 A2 A3 A4 (ix2 r w) = dev (row A0 r) (cen A1) (vec A2) (mat A3) (vec A4) w := by
  rw [val_main_v35_apply, val_main_v34_apply, mixed_row,
    show idx_main_v34 (ix2 r w) = ix2 r (0 : Fin 1) from idx2_ext rfl rfl, mean_row]
  rfl

/-- The mean square deviation of row r. -/
theorem var_row (r : Fin 65536) :
    val_main_v33 (F := Ideal) A0 A1 A2 A3 A4 (ix2 r (0 : Fin 1)) = var (row A0 r) (cen A1) (vec A2) (mat A3) (vec A4) := by
  rw [val_main_v33_apply, val_main_v31_apply, val_main_v32_apply, val_main_cst_5_apply, val_main_v30_apply,
    val_main_cst_4_apply]
  simp only [Ideal.ofBits_def, Ideal.hostDivf_def, Ideal.ofBits_zero_f32, zero_add]
  refine congrArg (Ideal.div · width) (Finset.sum_congr rfl fun w _ => ?_)
  rw [val_main_v29_apply, show idx_main_v30 (idx_main_v31 (ix2 r (0 : Fin 1))) w = ix2 r w from idx2_ext rfl rfl, dev_row]
  rfl

/-- The reference's result is the layer on every row. -/
theorem result_eq :
    val_main_v47 (F := Ideal) A0 A1 A2 A3 A4 A5 A6 = G A0 A1 A2 A3 A4 A5 A6 := by
  funext j
  obtain ⟨r, w, rfl⟩ : ∃ (r : Fin 65536) (w : Fin 512), j = ix2 r w := ⟨j 0, j 1, eq_ix2 j⟩
  rw [val_main_v47_apply, val_main_v46_apply, val_main_v43_apply, val_main_v40_apply, dev_row', val_main_v39_apply,
    val_main_v38_apply, val_main_v37_apply, val_main_v36_apply, val_main_cst_6_apply,
    show idx_main_v39 (ix2 r w) = ix2 r (0 : Fin 1) from idx2_ext rfl rfl, var_row,
    val_main_v42_apply, val_main_v41_apply, show idx_main_v41 (idx_main_v42 (ix2 r w)) = ix1 w from idx1_ext rfl,
    val_main_v45_apply, val_main_v44_apply, show idx_main_v44 (idx_main_v45 (ix2 r w)) = ix1 w from idx1_ext rfl]
  rfl

end Cert.ReferenceIdeal.RefLayer

end
-- ==== Proof.lean ====
/- A layer of radial basis activations, a linear mix and a normalisation, against its reference.

   Both programs compute, for every row x of the input array, the same function (Proof/Layer.lean): the squared
   distances |x|² + |C g|² − 2 x·C g to 512 centres, negated, scaled by exp of the log scales and exponentiated; the
   512 activations mixed by a matrix plus a bias; the mixed values centred by their mean, divided by the root of
   their mean square deviation plus a small constant, scaled, shifted, and put through tanh. The kernel does it 1024
   rows at a time over a grid of 64 points, feeding its two matrix products values narrowed to a shorter float format,
   which on the extended reals is the identity, and writing the negation as a difference from zero; the reference
   does it for the whole array with two contractions of last axes. Every sum on either side is a finite sum over one
   axis in the axis' order, every literal is the same binary word on both sides, and the transcendental functions are
   the same functions, so the two results are equal term by term: no law of the extended reals beyond 0 − a = −a is
   used, and the inputs' finiteness is never needed.
   The kernel's result array as the layer on every row: Proof/ArrayIsLayer.lean over Proof/BodyIsLayer.lean; the
   reference's: Proof/RefIsLayer.lean. The three frames are the generated runs; nothing was rewritten when the kernel
   was idealized, so there is nothing to preserve. -/
import proofs.«130811_j70385924047526_1_alg».proof.Defs
import proofs.«130811_j70385924047526_1_alg».proof.Proof.Gen.Kernel
import proofs.«130811_j70385924047526_1_alg».proof.Proof.Gen.Kernel.Skeleton
import proofs.«130811_j70385924047526_1_alg».proof.Proof.Gen.Kernel.Launch
import proofs.«130811_j70385924047526_1_alg».proof.Proof.Gen.Kernel.Points
import proofs.«130811_j70385924047526_1_alg».proof.Proof.Gen.Kernel.Frame
import proofs.«130811_j70385924047526_1_alg».proof.Proof.Gen.KernelIdeal
import proofs.«130811_j70385924047526_1_alg».proof.Proof.Gen.KernelIdeal.Skeleton
import proofs.«130811_j70385924047526_1_alg».proof.Proof.Gen.KernelIdeal.Launch
import proofs.«130811_j70385924047526_1_alg».proof.Proof.Gen.KernelIdeal.Points
import proofs.«130811_j70385924047526_1_alg».proof.Proof.Gen.KernelIdeal.Frame
import proofs.«130811_j70385924047526_1_alg».proof.Proof.Gen.ReferenceIdeal
import proofs.«130811_j70385924047526_1_alg».proof.Proof.Gen.Pre_finite_inputs
import proofs.«130811_j70385924047526_1_alg».proof.Proof.Gen.KernelIdeal.Value
import proofs.«130811_j70385924047526_1_alg».proof.Proof.Gen.ReferenceIdeal.Run
import proofs.«130811_j70385924047526_1_alg».proof.Proof.Gen.ReferenceIdeal.Read
import proofs.«130811_j70385924047526_1_alg».proof.Proof.ArrayIsLayer
import proofs.«130811_j70385924047526_1_alg».proof.Proof.RefIsLayer
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories agreeing on the arguments both programs end with the layer on every row of the input array. -/
theorem algebraic : Cert.algebraic_KernelIdeal_ReferenceIdeal := by
  intro m ρ m' ρ' _ hagree
  refine ⟨fun c => Cert.KernelIdeal.ArrayLayer.result m c, Cert.KernelIdeal.ArrayLayer.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v47_eq, Cert.ReferenceIdeal.RefLayer.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
